-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S128x64 .f32) (main_arg5 : FVec F S64 .f32) (main_arg6 : FVec F S64x16 .f32) (main_arg7 : FVec F S64x16 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S10000x10000 .f32) (main_arg3 : FVec F S128x64 .f32) (main_arg4 : FVec F S128x64 .f32) (main_arg5 : FVec F S64 .f32) (main_arg6 : FVec F S64x16 .f32) (main_arg7 : FVec F S64x16 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S200x10000 : Shape := ⟨2, ![200, 10000]⟩
abbrev S200x64 : Shape := ⟨2, ![200, 64]⟩
abbrev S10000x16 : Shape := ⟨2, ![10000, 16]⟩
abbrev S1x16 : Shape := ⟨2, ![1, 16]⟩
abbrev S200x16 : Shape := ⟨2, ![200, 16]⟩

abbrev nBuf : Space → Nat
  | .hbm => 17
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S10000x64, .bf16⟩
  | .hbm, ⟨10, _⟩ => ⟨S10000x64, .bf16⟩
  | .hbm, ⟨11, _⟩ => ⟨S1x64, .f32⟩
  | .hbm, ⟨12, _⟩ => ⟨S10000x64, .f32⟩
  | .hbm, ⟨13, _⟩ => ⟨S10000x16, .bf16⟩
  | .hbm, ⟨14, _⟩ => ⟨S10000x16, .bf16⟩
  | .hbm, ⟨15, _⟩ => ⟨S1x16, .f32⟩
  | .hbm, ⟨16, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x64, .bf16⟩
  | .local _ .vmem, ⟨10, _⟩ => ⟨S10000x64, .bf16⟩
  | .local _ .vmem, ⟨11, _⟩ => ⟨S1x64, .f32⟩
  | .local _ .vmem, ⟨12, _⟩ => ⟨S200x64, .f32⟩
  | .local _ .vmem, ⟨13, _⟩ => ⟨S200x64, .f32⟩
  | .local _ .vmem, ⟨14, _⟩ => ⟨S10000x64, .f32⟩
  | .local _ .vmem, ⟨15, _⟩ => ⟨S64x16, .f32⟩
  | .local _ .vmem, ⟨16, _⟩ => ⟨S64x16, .f32⟩
  | .local _ .vmem, ⟨17, _⟩ => ⟨S10000x16, .bf16⟩
  | .local _ .vmem, ⟨18, _⟩ => ⟨S10000x16, .bf16⟩
  | .local _ .vmem, ⟨19, _⟩ => ⟨S200x10000, .f32⟩
  | .local _ .vmem, ⟨20, _⟩ => ⟨S200x10000, .f32⟩
  | .local _ .vmem, ⟨21, _⟩ => ⟨S200x10000, .f32⟩
  | .local _ .vmem, ⟨22, _⟩ => ⟨S200x10000, .f32⟩
  | .local _ .vmem, ⟨23, _⟩ => ⟨S10000x16, .bf16⟩
  | .local _ .vmem, ⟨24, _⟩ => ⟨S10000x16, .bf16⟩
  | .local _ .vmem, ⟨25, _⟩ => ⟨S1x16, .f32⟩
  | .local _ .vmem, ⟨26, _⟩ => ⟨S200x16, .f32⟩
  | .local _ .vmem, ⟨27, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x16 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x16 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x16 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S10000x64_S64x16_S10000x16_1_0_0_1_n_n_wf : DotDims.WF S10000x64 S64x16 S10000x16 [1] [0] [0] [1] [] []
  dot_S200x10000_S10000x16_S200x16_1_0_0_1_n_n_wf : DotDims.WF S200x10000 S10000x16 S200x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S10000x64.size a
  hwx1_2 : ∀ i : grid1.Coords, EltTy.bits .bf16 = 32 ∨ (Rect.block (s := S10000x64) S10000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S10000x64.size a
  hwx1_3 : ∀ i : grid1.Coords, EltTy.bits .bf16 = 32 ∨ (Rect.block (s := S10000x64) S10000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x64.size a ≤ S10000x64.size a
  hwx1_5 : ∀ i : grid1.Coords, EltTy.bits .f32 = 32 ∨ (Rect.block (s := S10000x64) S200x64.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .f32 = 32 ∨ (Rect.block (s := S10000x10000) S200x10000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S10000x16.size a
  hwx3_2 : ∀ i : grid3.Coords, EltTy.bits .bf16 = 32 ∨ (Rect.block (s := S10000x16) S10000x16.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S10000x16.size a
  hwx3_3 : ∀ i : grid3.Coords, EltTy.bits .bf16 = 32 ∨ (Rect.block (s := S10000x16) S10000x16.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S200x16.size a ≤ S10000x16.size a
  hwx3_5 : ∀ i : grid3.Coords, EltTy.bits .f32 = 32 ∨ (Rect.block (s := S10000x16) S200x16.size (cc3_transform_5 i) (hinb3_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0_0) true false (stage0_3 0) (sem0_3 0) (Memref.isWhole_whole _) (hstage0_3 0)

abbrev win0_4 : Pipeline.Window sig grid0 :=
  Pipeline.Window.whole (Memref.whole main_v0_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S10000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S10000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S200x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_arg6) false false (stage2_1 0) (sem2_1 0) (Memref.isWhole_whole _) (hstage2_1 0)

abbrev win2_2 : Pipeline.Window sig grid2 :=
  Pipeline.Window.whole (Memref.whole main_arg7) false false (stage2_2 0) (sem2_2 0) (Memref.isWhole_whole _) (hstage2_2 0)

abbrev win2_3 : Pipeline.Window sig grid2 :=
  Pipeline.Window.whole (Memref.whole main_v3_0) true false (stage2_3 0) (sem2_3 0) (Memref.isWhole_whole _) (hstage2_3 0)

abbrev win2_4 : Pipeline.Window sig grid2 :=
  Pipeline.Window.whole (Memref.whole main_v3_1) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S10000x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3_1) S10000x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S200x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S1x16, .f32⟩
  | .hbm, ⟨26, _⟩ => ⟨S10000x16, .f32⟩
  | .hbm, ⟨27, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Spec.lean ====
/-
  A two-layer graph convolution over two dense adjacency arrays, read on the extended reals, as whole-array
  functions that are generic in the sizes.

  One layer sends node features h (an [n, f] array) to

      A · (h · W)  +  A' · (h · W')  +  b

  where A, A' are [n, n] arrays, W, W' are [f, g] arrays, every product is the plain matrix product
  (entry (p, q) is the finite sum over k of left (p, k) · right (k, q)), and the [g] vector b is added to every
  row. The first layer is followed by the entrywise maximum with zero; the second is not.

  Nothing here needs the entries to be finite: the two programs compared against this function perform the same
  products and the same two additions in the same grouping, so no law of arithmetic beyond reading each
  operation at an index is used.
-/
import Idealize.ShloMosaic.Lib.ValueIdx
import Idealize.ShloMosaic.Lib.ValueLayout
import Idealize.ShloMosaic.Lib.Pipeline.Value
import Idealize.ShloMosaic.PureOps.Ideal.Laws
import proofs.«180619_g4011499454775_cont_8to1_b_953_2_alg».proof.Proof.LibMatmulPlain

noncomputable section

namespace Cert.Gcn

open Idealize.ShloMosaic Idealize.ShloMosaic.ValueIdx

variable {M K N : ℕ}

/-- The plain product of an [M, K] array by a [K, N] array: entry (p, q) is ∑ k, l (p, k) · r (k, q). -/
def mm (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

theorem mm_apply (l : (⟨2, ![M, K]⟩ : Shape).Idx → EReal) (r : (⟨2, ![K, N]⟩ : Shape).Idx → EReal) (p : Fin M) (q : Fin N) :
    mm l r (ix2 p q) = ∑ k : Fin K, l (ix2 p k) * r (ix2 k q) := rfl

/-- One layer before its activation: the two aggregated products added, then the bias vector added to every row. -/
def layer (A A' : (⟨2, ![M, K]⟩ : Shape).Idx → EReal) (S S' : (⟨2, ![K, N]⟩ : Shape).Idx → EReal)
    (b : (⟨1, ![N]⟩ : Shape).Idx → EReal) : (⟨2, ![M, N]⟩ : Shape).Idx → EReal :=
  fun i => mm A S i + mm A' S' i + b (ix1 (i 1))

theorem layer_apply (A A' : (⟨2, ![M, K]⟩ : Shape).Idx → EReal) (S S' : (⟨2, ![K, N]⟩ : Shape).Idx → EReal)
    (b : (⟨1, ![N]⟩ : Shape).Idx → EReal) (p : Fin M) (q : Fin N) :
    layer A A' S S' b (ix2 p q) = mm A S (ix2 p q) + mm A' S' (ix2 p q) + b (ix1 q) := rfl

/-- The activation: the entrywise maximum with the number the all-zero 32-bit pattern denotes. -/
def relu (v : (⟨2, ![M, N]⟩ : Shape).Idx → EReal) : (⟨2, ![M, N]⟩ : Shape).Idx → EReal :=
  fun i => max (v i) (Ideal.ofBits .f32 0x00000000#32)

/-- The whole network: n nodes, f input features, g hidden features, c classes. -/
def net {n f g c : ℕ} (x : (⟨2, ![n, f]⟩ : Shape).Idx → EReal) (A A' : (⟨2, ![n, n]⟩ : Shape).Idx → EReal)
    (W0 W0' : (⟨2, ![f, g]⟩ : Shape).Idx → EReal) (b0 : (⟨1, ![g]⟩ : Shape).Idx → EReal)
    (W1 W1' : (⟨2, ![g, c]⟩ : Shape).Idx → EReal) (b1 : (⟨1, ![c]⟩ : Shape).Idx → EReal) :
    (⟨2, ![n, c]⟩ : Shape).Idx → EReal :=
  layer A A' (mm (relu (layer A A' (mm x W0) (mm x W0') b0)) W1) (mm (relu (layer A A' (mm x W0) (mm x W0') b0)) W1') b1

/-! ## The two kernel bodies, generic in the sizes -/

/-- A product into a zero accumulator, then a change of float format (the identity on the extended reals), is the
    plain product. -/
theorem support_value (prec : Option ContractPrecision) (x : FVec Ideal ⟨2, ![M, K]⟩ .f32) (w : FVec Ideal ⟨2, ![K, N]⟩ .f32)
    (h : FTy.bits .bf16 < FTy.bits .f32) :
    (truncf .bf16 (matmul (DotDims.plain M K N) prec x w (constant ⟨2, ![M, N]⟩ .f32 0x00000000#32)) h : FVec Ideal ⟨2, ![M, N]⟩ .bf16)
      = mm x w := by
  funext i
  obtain ⟨p, q, rfl⟩ : ∃ (p : Fin M) (q : Fin N), i = ix2 p q := ⟨i 0, i 1, eq_ix2 i⟩
  exact MatmulPlain.matmul_zero_apply prec x w p q

/-- The aggregation body before its activation, at an entry: two products of format-changed adjacency blocks by
    the supports, added, and a one-row bias array broadcast over the rows and added. -/
theorem aggregate_value (a a' : FVec Ideal ⟨2, ![M, K]⟩ .f32) (s s' : FVec Ideal ⟨2, ![K, N]⟩ .bf16)
    (b : FVec Ideal ⟨2, ![1, N]⟩ .f32) (h : FTy.bits .bf16 < FTy.bits .f32)
    (hs : (⟨2, ![K, N]⟩ : Shape).ShapeCasts ⟨2, ![K, N]⟩) (hb : (⟨2, ![1, N]⟩ : Shape).ShapeCasts ⟨2, ![1, N]⟩)
    (hbr : (⟨2, ![1, N]⟩ : Shape).Broadcasts ⟨2, ![M, N]⟩) (p : Fin M) (q : Fin N) :
    addf (addf
        (matmul (DotDims.plain M K N) none (truncf .bf16 a h : FVec Ideal ⟨2, ![M, K]⟩ .bf16) (shapeCast ⟨2, ![K, N]⟩ s hs) (constant ⟨2, ![M, N]⟩ .f32 0x00000000#32))
        (matmul (DotDims.plain M K N) none (truncf .bf16 a' h : FVec Ideal ⟨2, ![M, K]⟩ .bf16) (shapeCast ⟨2, ![K, N]⟩ s' hs) (constant ⟨2, ![M, N]⟩ .f32 0x00000000#32)))
      (broadcastTo ⟨2, ![M, N]⟩ (shapeCast ⟨2, ![1, N]⟩ b hb) hbr) (ix2 p q)
      = mm a s (ix2 p q) + mm a' s' (ix2 p q) + b (ix2 (0 : Fin 1) q) := by
  rw [addf_apply, addf_apply, MatmulPlain.matmul_zero_apply, MatmulPlain.matmul_zero_apply,
    broadcastTo_1b_ab_apply, shapeCast_self, shapeCast_self, shapeCast_self]
  rfl

end Cert.Gcn

end
-- ==== Proof.Region0.lean ====
/-
  The first support region (one grid point, every window the whole array), read at the exact instance from ANY
  contents V of the buffers at its entry.

  The body multiplies the features by each of the two weight arrays into a zero accumulator and changes the float
  format, which is the identity on the extended reals; its one point writes both products back whole. So each of the
  two output arrays ends holding the plain product of the features by its weight array.
-/
import proofs.«180619_g4011499454775_cont_8to1_b_953_2_alg».proof.Proof.Gen.KernelIdeal.Frame
import proofs.«180619_g4011499454775_cont_8to1_b_953_2_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem zeros0 : (![0, 0] : Fin 2 → Nat) = fun _ => 0 := funext fun a => by fin_cases a <;> rfl

/-- What the region leaves in its two output arrays. -/
def supportLow0 (c : Dev nD) : S10000x64.Idx → EReal := Gcn.mm (M := 10000) (K := 128) (N := 64) (V c main_arg0) (V c main_arg3)
def supportHigh0 (c : Dev nD) : S10000x64.Idx → EReal := Gcn.mm (M := 10000) (K := 128) (N := 64) (V c main_arg0) (V c main_arg4)

/-- The body's two stored values are plain products. -/
theorem bodyLow0 (x : Vec Ideal S10000x128 .f32) (w : Vec Ideal S128x64 .f32) : k0_pay1 x w = Gcn.mm x w :=
  Gcn.support_value (some .fp32) x w bitsLt_bf16_f32
theorem bodyHigh0 (x : Vec Ideal S10000x128 .f32) (w : Vec Ideal S128x64 .f32) : k0_pay2 x w = Gcn.mm x w :=
  Gcn.support_value (some .fp32) x w bitsLt_bf16_f32

/-- Every window sits at block 0 at the one point. -/
theorem maps0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem features0 (c : Dev nD) (t : Fin cfg0.N) (p : Fin 10000) (k : Fin 128) :
    iblk0 V c 0 t (ix2 p k) = V c main_arg0 (ix2 p k) := by
  show V c main_arg0 (((cfg0.win 0).blk t).view.emb (ix2 p k)) = V c main_arg0 (ix2 p k)
  refine congrArg _ (funext fun a => Fin.ext ?_)
  obtain ⟨e0, e1, -⟩ := maps0 t
  match a with
  | ⟨0, _⟩ => show win0_0.index t (0 : Fin 2) * 10000 + 1 * p.val = p.val; omega
  | ⟨1, _⟩ => show win0_0.index t (1 : Fin 2) * 128 + 1 * k.val = k.val; omega

theorem weightLow0 (c : Dev nD) (t : Fin cfg0.N) (k : Fin 128) (q : Fin 64) :
    iblk0 V c 1 t (ix2 k q) = V c main_arg3 (ix2 k q) := by
  show V c main_arg3 (((cfg0.win 1).blk t).view.emb (ix2 k q)) = V c main_arg3 (ix2 k q)
  refine congrArg _ (funext fun a => Fin.ext ?_)
  obtain ⟨-, -, e0, e1, -⟩ := maps0 t
  match a with
  | ⟨0, _⟩ => show win0_1.index t (0 : Fin 2) * 128 + 1 * k.val = k.val; omega
  | ⟨1, _⟩ => show win0_1.index t (1 : Fin 2) * 64 + 1 * q.val = q.val; omega

theorem weightHigh0 (c : Dev nD) (t : Fin cfg0.N) (k : Fin 128) (q : Fin 64) :
    iblk0 V c 2 t (ix2 k q) = V c main_arg4 (ix2 k q) := by
  show V c main_arg4 (((cfg0.win 2).blk t).view.emb (ix2 k q)) = V c main_arg4 (ix2 k q)
  refine congrArg _ (funext fun a => Fin.ext ?_)
  obtain ⟨-, -, -, -, e0, e1, -⟩ := maps0 t
  match a with
  | ⟨0, _⟩ => show win0_2.index t (0 : Fin 2) * 128 + 1 * k.val = k.val; omega
  | ⟨1, _⟩ => show win0_2.index t (1 : Fin 2) * 64 + 1 * q.val = q.val; omega

theorem outLowAt0 (t : Fin cfg0.N) (p : Fin 10000) (q : Fin 64) :
    ((cfg0.win 3).blk t).view.emb (ix2 p q) = ix2 p q := by
  funext a; apply Fin.ext
  obtain ⟨-, -, -, -, -, -, e0, e1, -⟩ := maps0 t
  match a with
  | ⟨0, _⟩ => show win0_3.index t (0 : Fin 2) * 10000 + 1 * p.val = p.val; omega
  | ⟨1, _⟩ => show win0_3.index t (1 : Fin 2) * 64 + 1 * q.val = q.val; omega

theorem outHighAt0 (t : Fin cfg0.N) (p : Fin 10000) (q : Fin 64) :
    ((cfg0.win 4).blk t).view.emb (ix2 p q) = ix2 p q := by
  funext a; apply Fin.ext
  obtain ⟨-, -, -, -, -, -, -, -, e0, e1⟩ := maps0 t
  match a with
  | ⟨0, _⟩ => show win0_4.index t (0 : Fin 2) * 10000 + 1 * p.val = p.val; omega
  | ⟨1, _⟩ => show win0_4.index t (1 : Fin 2) * 64 + 1 * q.val = q.val; omega

/-- What the one point writes back to the first output is the product by the first weight array. -/
theorem flushedLow0 (c : Dev nD) (t : Fin cfg0.N) :
    (dat0 V c).flushed 3 t = ((cfg0.win 3).blk t).view.read (Elt Ideal) (supportLow0 V c) := by
  show (cfg0.win 3).cut (grid0.coords t) ((dat0 V c).after 3 t) = _
  rw [after0_3]
  unfold out0_3
  rw [View.canon_unit_zero zeros0]
  simp only [View.ld_unit_zero (S := S10000x128) zeros0, View.ld_unit_zero (S := S128x64) zeros0]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = supportLow0 V c (((cfg0.win 3).blk t).view.emb (ix2 p q))
  rw [outLowAt0 t p q]
  refine (congrFun (bodyLow0 (iblk0 V c 0 t) (iblk0 V c 1 t)) (ix2 p q)).trans ?_
  show Gcn.mm (iblk0 V c 0 t) (iblk0 V c 1 t) (ix2 p q) = Gcn.mm (V c main_arg0) (V c main_arg3) (ix2 p q)
  simp only [Gcn.mm_apply, features0 V c t, weightLow0 V c t]

theorem flushedHigh0 (c : Dev nD) (t : Fin cfg0.N) :
    (dat0 V c).flushed 4 t = ((cfg0.win 4).blk t).view.read (Elt Ideal) (supportHigh0 V c) := by
  show (cfg0.win 4).cut (grid0.coords t) ((dat0 V c).after 4 t) = _
  rw [after0_4]
  unfold out0_4
  rw [View.canon_unit_zero zeros0]
  simp only [View.ld_unit_zero (S := S10000x128) zeros0, View.ld_unit_zero (S := S128x64) zeros0]
  funext j
  obtain ⟨p, q, rfl⟩ : ∃ (p : Fin 10000) (q : Fin 64), j = ix2 p q := ⟨j 0, j 1, eq_ix2 j⟩
  show k0_pay2 (iblk0 V c 0 t) (iblk0 V c 2 t) (ix2 p q) = supportHigh0 V c (((cfg0.win 4).blk t).view.emb (ix2 p q))
  rw [outHighAt0 t p q]
  refine (congrFun (bodyHigh0 (iblk0 V c 0 t) (iblk0 V c 2 t)) (ix2 p q)).trans ?_
  show Gcn.mm (iblk0 V c 0 t) (iblk0 V c 2 t) (ix2 p q) = Gcn.mm (V c main_arg0) (V c main_arg4) (ix2 p q)
  simp only [Gcn.mm_apply, features0 V c t, weightHigh0 V c t]

theorem mem_blockLow0 (t : Fin cfg0.N) (i : S10000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0_0).slice (win0_3.rect t)).set ↔ _
  rw [View.set_slice_whole, Rect.mem_set_unit]
  exact Iff.rfl

theorem mem_blockHigh0 (t : Fin cfg0.N) (i : S10000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v0_1).slice (win0_4.rect t)).set ↔ _
  rw [View.set_slice_whole, Rect.mem_set_unit]
  exact Iff.rfl

/-- The one block is the whole array. -/
theorem tiledLow0 (i : S10000x64.Idx) : ∃ t : Fin cfg0.N, (cfg0.win 3).flush t = true ∧ i ∈ ((cfg0.win 3).blk t).view.set := by
  have hi0 : (i 0).val < 10000 := (i 0).isLt
  have hi1 : (i 1).val < 64 := (i 1).isLt
  obtain ⟨-, -, -, -, -, -, e0, e1, -⟩ := maps0 t0_0
  refine ⟨t0_0, flush0_3 t0_0, ?_⟩
  rw [mem_blockLow0]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 64 ≤ (i 1).val ∧ (i 1).val < win0_3.index t0_0 (1 : Fin 2) * 64 + 64; omega

theorem tiledHigh0 (i : S10000x64.Idx) : ∃ t : Fin cfg0.N, (cfg0.win 4).flush t = true ∧ i ∈ ((cfg0.win 4).blk t).view.set := by
  have hi0 : (i 0).val < 10000 := (i 0).isLt
  have hi1 : (i 1).val < 64 := (i 1).isLt
  obtain ⟨-, -, -, -, -, -, -, -, e0, e1⟩ := maps0 t0_0
  refine ⟨t0_0, flush0_4 t0_0, ?_⟩
  rw [mem_blockHigh0]
  intro a
  match a with
  | ⟨0, _⟩ => show win0_4.index t0_0 (0 : Fin 2) * 10000 ≤ (i 0).val ∧ (i 0).val < win0_4.index t0_0 (0 : Fin 2) * 10000 + 10000; omega
  | ⟨1, _⟩ => show win0_4.index t0_0 (1 : Fin 2) * 64 ≤ (i 1).val ∧ (i 1).val < win0_4.index t0_0 (1 : Fin 2) * 64 + 64; omega

/-- The two output arrays after the region. -/
theorem arrayLow0 (c : Dev nD) : (dat0 V c).arrAt 3 cfg0.N = supportLow0 V c :=
  (dat0 V c).arrAt_eq_of_cover 3 (supportLow0 V c) (fun t _ => flushedLow0 V c t) tiledLow0
theorem arrayHigh0 (c : Dev nD) : (dat0 V c).arrAt 4 cfg0.N = supportHigh0 V c :=
  (dat0 V c).arrAt_eq_of_cover 4 (supportHigh0 V c) (fun t _ => flushedHigh0 V c t) tiledHigh0

end Cert.KernelIdeal.RegionValue

end
-- ==== Proof.Region1.lean ====
/-
  The first aggregation region (50 grid points, 200 rows each), read at the exact instance from ANY contents V of
  the buffers at its entry.

  Grid point t stages rows [200·t, 200·t + 200) of both adjacency arrays and the two support arrays and the one-row
  bias whole, and writes back rows [200·t, 200·t + 200) of the output. Row p of that block is row 200·t + p of

      max (A · S + A' · S' + b, 0)

  because row p of an adjacency block is row 200·t + p of the adjacency array. The 50 blocks tile the output's rows, so
  the output array ends holding that function everywhere.
-/
import proofs.«180619_g4011499454775_cont_8to1_b_953_2_alg».proof.Proof.Gen.KernelIdeal.Frame
import proofs.«180619_g4011499454775_cont_8to1_b_953_2_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem zeros1 : (![0, 0] : Fin 2 → Nat) = fun _ => 0 := funext fun a => by fin_cases a <;> rfl

/-- What the region leaves in its output array: the activated layer of the arrays it reads, the bias read off
    the one row of its [1, 64] array. -/
def hidden (c : Dev nD) : S10000x64.Idx → EReal :=
  Gcn.relu (Gcn.layer (M := 10000) (K := 10000) (N := 64) (V c main_arg1) (V c main_arg2) (V c main_v0_0) (V c main_v0_1)
    (fun i => V c main_v1 (ix2 (0 : Fin 1) (i 0))))

/-- The body's arithmetic at entry (p, q) of its block. -/
theorem body1 (a a' : Vec Ideal S200x10000 .f32) (s s' : Vec Ideal S10000x64 .bf16) (b : Vec Ideal S1x64 .f32) (p : Fin 200) (q : Fin 64) :
    k1_pay1 a a' s s' b (ix2 p q)
      = max (Gcn.mm a s (ix2 p q) + Gcn.mm a' s' (ix2 p q) + b (ix2 (0 : Fin 1) q)) (Ideal.ofBits .f32 0x00000000#32) :=
  congrArg₂ max (Gcn.aggregate_value a a' s s' b bitsLt_bf16_f32 shapeCasts_S10000x64_S10000x64 shapeCasts_S1x64_S1x64 broadcasts_S1x64_S200x64 p q) rfl

/-- The printed index maps over the 50 points: the adjacency windows move with the output window along the rows, the
    other windows stay at block 0, and the output's row-block index is below 50. -/
theorem maps1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 49 ∧ win1_5.index t (1 : Fin 2) = 0 :=
  (by decide +kernel : ∀ t : Fin grid1.N, _)

/-- Every row block is some point's. -/
theorem onto1 : ∀ r : Fin 50, ∃ t : Fin cfg1.N, win1_5.index t = ![r.val, 0] :=
  (by decide +kernel : ∀ r : Fin 50, ∃ t : Fin grid1.N, win1_5.index t = ![r.val, 0])

/-- The array row that row p of point t's blocks is. -/
def row1 (t : Fin cfg1.N) (p : Fin 200) : Fin 10000 :=
  ⟨win1_5.index t (0 : Fin 2) * 200 + p.val, by have := (maps1 t).2.2.2.2.2.2.2.2.2.2.1; have := p.isLt; omega⟩

theorem adj1 (c : Dev nD) (t : Fin cfg1.N) (p : Fin 200) (k : Fin 10000) :
    iblk1 V c 0 t (ix2 p k) = V c main_arg1 (ix2 (row1 t p) k) := by
  show V c main_arg1 (((cfg1.win 0).blk t).view.emb (ix2 p k)) = V c main_arg1 (ix2 (row1 t p) k)
  refine congrArg _ (funext fun a => Fin.ext ?_)
  obtain ⟨e0, e1, -⟩ := maps1 t
  match a with
  | ⟨0, _⟩ => show win1_0.index t (0 : Fin 2) * 200 + 1 * p.val = win1_5.index t (0 : Fin 2) * 200 + p.val; omega
  | ⟨1, _⟩ => show win1_0.index t (1 : Fin 2) * 10000 + 1 * k.val = k.val; omega

theorem adjHigh1 (c : Dev nD) (t : Fin cfg1.N) (p : Fin 200) (k : Fin 10000) :
    iblk1 V c 1 t (ix2 p k) = V c main_arg2 (ix2 (row1 t p) k) := by
  show V c main_arg2 (((cfg1.win 1).blk t).view.emb (ix2 p k)) = V c main_arg2 (ix2 (row1 t p) k)
  refine congrArg _ (funext fun a => Fin.ext ?_)
  obtain ⟨-, -, e0, e1, -⟩ := maps1 t
  match a with
  | ⟨0, _⟩ => show win1_1.index t (0 : Fin 2) * 200 + 1 * p.val = win1_5.index t (0 : Fin 2) * 200 + p.val; omega
  | ⟨1, _⟩ => show win1_1.index t (1 : Fin 2) * 10000 + 1 * k.val = k.val; omega

theorem supLow1 (c : Dev nD) (t : Fin cfg1.N) (k : Fin 10000) (q : Fin 64) :
    iblk1 V c 2 t (ix2 k q) = V c main_v0_0 (ix2 k q) := by
  show V c main_v0_0 (((cfg1.win 2).blk t).view.emb (ix2 k q)) = V c main_v0_0 (ix2 k q)
  refine congrArg _ (funext fun a => Fin.ext ?_)
  obtain ⟨-, -, -, -, e0, e1, -⟩ := maps1 t
  match a with
  | ⟨0, _⟩ => show win1_2.index t (0 : Fin 2) * 10000 + 1 * k.val = k.val; omega
  | ⟨1, _⟩ => show win1_2.index t (1 : Fin 2) * 64 + 1 * q.val = q.val; omega

theorem supHigh1 (c : Dev nD) (t : Fin cfg1.N) (k : Fin 10000) (q : Fin 64) :
    iblk1 V c 3 t (ix2 k q) = V c main_v0_1 (ix2 k q) := by
  show V c main_v0_1 (((cfg1.win 3).blk t).view.emb (ix2 k q)) = V c main_v0_1 (ix2 k q)
  refine congrArg _ (funext fun a => Fin.ext ?_)
  obtain ⟨-, -, -, -, -, -, e0, e1, -⟩ := maps1 t
  match a with
  | ⟨0, _⟩ => show win1_3.index t (0 : Fin 2) * 10000 + 1 * k.val = k.val; omega
  | ⟨1, _⟩ => show win1_3.index t (1 : Fin 2) * 64 + 1 * q.val = q.val; omega

theorem bias1 (c : Dev nD) (t : Fin cfg1.N) (u : Fin 1) (q : Fin 64) :
    iblk1 V c 4 t (ix2 u q) = V c main_v1 (ix2 u q) := by
  show V c main_v1 (((cfg1.win 4).blk t).view.emb (ix2 u q)) = V c main_v1 (ix2 u q)
  refine congrArg _ (funext fun a => Fin.ext ?_)
  obtain ⟨-, -, -, -, -, -, -, -, e0, e1, -⟩ := maps1 t
  match a with
  | ⟨0, _⟩ => show win1_4.index t (0 : Fin 2) * 1 + 1 * u.val = u.val; omega
  | ⟨1, _⟩ => show win1_4.index t (1 : Fin 2) * 64 + 1 * q.val = q.val; omega

theorem outAt1 (t : Fin cfg1.N) (p : Fin 200) (q : Fin 64) :
    ((cfg1.win 5).blk t).view.emb (ix2 p q) = ix2 (row1 t p) q := by
  funext a; apply Fin.ext
  have e1 := (maps1 t).2.2.2.2.2.2.2.2.2.2.2
  match a with
  | ⟨0, _⟩ => show win1_5.index t (0 : Fin 2) * 200 + 1 * p.val = win1_5.index t (0 : Fin 2) * 200 + p.val; omega
  | ⟨1, _⟩ => show win1_5.index t (1 : Fin 2) * 64 + 1 * q.val = q.val; omega

/-- What point t writes back is block t of the activated layer. -/
theorem flushed1 (c : Dev nD) (t : Fin cfg1.N) :
    (dat1 V c).flushed 5 t = ((cfg1.win 5).blk t).view.read (Elt Ideal) (hidden V c) := by
  show (cfg1.win 5).cut (grid1.coords t) ((dat1 V c).after 5 t) = _
  rw [after1_5]
  unfold out1_5
  rw [View.canon_unit_zero zeros1]
  simp only [View.ld_unit_zero (S := S200x10000) zeros1, View.ld_unit_zero (S := S10000x64) zeros1, View.ld_unit_zero (S := S1x64) zeros1]
  funext j
  obtain ⟨p, q, rfl⟩ : ∃ (p : Fin 200) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = hidden V c (((cfg1.win 5).blk t).view.emb (ix2 p q))
  rw [outAt1 t p q]
  refine (body1 (iblk1 V c 0 t) (iblk1 V c 1 t) (iblk1 V c 2 t) (iblk1 V c 3 t) (iblk1 V c 4 t) p q).trans ?_
  show max (Gcn.mm (iblk1 V c 0 t) (iblk1 V c 2 t) (ix2 p q) + Gcn.mm (iblk1 V c 1 t) (iblk1 V c 3 t) (ix2 p q) + iblk1 V c 4 t (ix2 (0 : Fin 1) q)) _
    = max (Gcn.mm (V c main_arg1) (V c main_v0_0) (ix2 (row1 t p) q) + Gcn.mm (V c main_arg2) (V c main_v0_1) (ix2 (row1 t p) q) + V c main_v1 (ix2 (0 : Fin 1) q)) _
  simp only [Gcn.mm_apply, adj1 V c t, adjHigh1 V c t, supLow1 V c t, supHigh1 V c t, bias1 V c t]

theorem mem_block1 (t : Fin cfg1.N) (i : S10000x64.Idx) :
    i ∈ ((cfg1.win 5).blk t).view.set ↔ ∀ a : Fin 2, win1_5.index t a * S200x64.size a ≤ (i a).val ∧ (i a).val < win1_5.index t a * S200x64.size a + S200x64.size a := by
  show i ∈ ((View.whole main_v2).slice (win1_5.rect t)).set ↔ _
  rw [View.set_slice_whole, Rect.mem_set_unit]
  exact Iff.rfl

/-- The 50 row blocks tile the output array. -/
theorem tiled1 (i : S10000x64.Idx) : ∃ t : Fin cfg1.N, (cfg1.win 5).flush t = true ∧ i ∈ ((cfg1.win 5).blk t).view.set := by
  have hi0 : (i 0).val < 10000 := (i 0).isLt
  have hi1 : (i 1).val < 64 := (i 1).isLt
  obtain ⟨t, ht⟩ := onto1 ⟨(i 0).val / 200, by omega⟩
  have q0 : win1_5.index t (0 : Fin 2) = (i 0).val / 200 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 64 ≤ (i 1).val ∧ (i 1).val < win1_5.index t (1 : Fin 2) * 64 + 64; omega

/-- The output array after the region. -/
theorem array1 (c : Dev nD) : (dat1 V c).arrAt 5 cfg1.N = hidden V c :=
  (dat1 V c).arrAt_eq_of_cover 5 (hidden V c) (fun t _ => flushed1 V c t) tiled1

end Cert.KernelIdeal.RegionValue

end
-- ==== Proof.Region2.lean ====
/-
  The second support region (one grid point, every window the whole array), read at the exact instance from ANY
  contents V of the buffers at its entry.

  The body reads the hidden features through a cast to their own shape (the identity), multiplies them by each of the
  two second-layer weight arrays into a zero accumulator and changes the float format (the identity on the extended
  reals); its one point writes both products back whole. So each of the two output arrays ends holding the plain
  product of the hidden features by its weight array.
-/
import proofs.«180619_g4011499454775_cont_8to1_b_953_2_alg».proof.Proof.Gen.KernelIdeal.Frame
import proofs.«180619_g4011499454775_cont_8to1_b_953_2_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- What the region leaves in its two output arrays. -/
def supportLow2 (c : Dev nD) : S10000x16.Idx → EReal := Gcn.mm (M := 10000) (K := 64) (N := 16) (V c main_v2) (V c main_arg6)
def supportHigh2 (c : Dev nD) : S10000x16.Idx → EReal := Gcn.mm (M := 10000) (K := 64) (N := 16) (V c main_v2) (V c main_arg7)

/-- The cast of the features to their own shape is the identity. -/
theorem cast2 (x : Vec Ideal S10000x64 .f32) : k2_pay1 x = x := shapeCast_self x shapeCasts_S10000x64_S10000x64

/-- The body's two stored values are plain products. -/
theorem bodyLow2 (x : Vec Ideal S10000x64 .f32) (w : Vec Ideal S64x16 .f32) : k2_pay2 x w = Gcn.mm x w := by
  unfold k2_pay2; rw [cast2]; exact Gcn.support_value (some .fp32) x w bitsLt_bf16_f32
theorem bodyHigh2 (x : Vec Ideal S10000x64 .f32) (w : Vec Ideal S64x16 .f32) : k2_pay3 x w = Gcn.mm x w := by
  unfold k2_pay3; rw [cast2]; exact Gcn.support_value (some .fp32) x w bitsLt_bf16_f32

/-- Every window sits at block 0 at the one point. -/
theorem maps2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem features2 (c : Dev nD) (t : Fin cfg2.N) (p : Fin 10000) (k : Fin 64) :
    iblk2 V c 0 t (ix2 p k) = V c main_v2 (ix2 p k) := by
  show V c main_v2 (((cfg2.win 0).blk t).view.emb (ix2 p k)) = V c main_v2 (ix2 p k)
  refine congrArg _ (funext fun a => Fin.ext ?_)
  obtain ⟨e0, e1, -⟩ := maps2 t
  match a with
  | ⟨0, _⟩ => show win2_0.index t (0 : Fin 2) * 10000 + 1 * p.val = p.val; omega
  | ⟨1, _⟩ => show win2_0.index t (1 : Fin 2) * 64 + 1 * k.val = k.val; omega

theorem weightLow2 (c : Dev nD) (t : Fin cfg2.N) (k : Fin 64) (q : Fin 16) :
    iblk2 V c 1 t (ix2 k q) = V c main_arg6 (ix2 k q) := by
  show V c main_arg6 (((cfg2.win 1).blk t).view.emb (ix2 k q)) = V c main_arg6 (ix2 k q)
  refine congrArg _ (funext fun a => Fin.ext ?_)
  obtain ⟨-, -, e0, e1, -⟩ := maps2 t
  match a with
  | ⟨0, _⟩ => show win2_1.index t (0 : Fin 2) * 64 + 1 * k.val = k.val; omega
  | ⟨1, _⟩ => show win2_1.index t (1 : Fin 2) * 16 + 1 * q.val = q.val; omega

theorem weightHigh2 (c : Dev nD) (t : Fin cfg2.N) (k : Fin 64) (q : Fin 16) :
    iblk2 V c 2 t (ix2 k q) = V c main_arg7 (ix2 k q) := by
  show V c main_arg7 (((cfg2.win 2).blk t).view.emb (ix2 k q)) = V c main_arg7 (ix2 k q)
  refine congrArg _ (funext fun a => Fin.ext ?_)
  obtain ⟨-, -, -, -, e0, e1, -⟩ := maps2 t
  match a with
  | ⟨0, _⟩ => show win2_2.index t (0 : Fin 2) * 64 + 1 * k.val = k.val; omega
  | ⟨1, _⟩ => show win2_2.index t (1 : Fin 2) * 16 + 1 * q.val = q.val; omega

theorem outLowAt2 (t : Fin cfg2.N) (p : Fin 10000) (q : Fin 16) :
    ((cfg2.win 3).blk t).view.emb (ix2 p q) = ix2 p q := by
  funext a; apply Fin.ext
  obtain ⟨-, -, -, -, -, -, e0, e1, -⟩ := maps2 t
  match a with
  | ⟨0, _⟩ => show win2_3.index t (0 : Fin 2) * 10000 + 1 * p.val = p.val; omega
  | ⟨1, _⟩ => show win2_3.index t (1 : Fin 2) * 16 + 1 * q.val = q.val; omega

theorem outHighAt2 (t : Fin cfg2.N) (p : Fin 10000) (q : Fin 16) :
    ((cfg2.win 4).blk t).view.emb (ix2 p q) = ix2 p q := by
  funext a; apply Fin.ext
  obtain ⟨-, -, -, -, -, -, -, -, e0, e1⟩ := maps2 t
  match a with
  | ⟨0, _⟩ => show win2_4.index t (0 : Fin 2) * 10000 + 1 * p.val = p.val; omega
  | ⟨1, _⟩ => show win2_4.index t (1 : Fin 2) * 16 + 1 * q.val = q.val; omega

/-- What the one point writes back to the first output is the product by the first weight array. -/
theorem flushedLow2 (c : Dev nD) (t : Fin cfg2.N) :
    (dat2 V c).flushed 3 t = ((cfg2.win 3).blk t).view.read (Elt Ideal) (supportLow2 V c) := by
  show (cfg2.win 3).cut (grid2.coords t) ((dat2 V c).after 3 t) = _
  rw [after2_3]
  unfold out2_3
  rw [View.canon_unit_zero zeros2]
  simp only [View.ld_unit_zero (S := S10000x64) zeros2, View.ld_unit_zero (S := S64x16) zeros2]
  funext j
  obtain ⟨p, q, rfl⟩ : ∃ (p : Fin 10000) (q : Fin 16), j = ix2 p q := ⟨j 0, j 1, eq_ix2 j⟩
  show k2_pay2 (iblk2 V c 0 t) (iblk2 V c 1 t) (ix2 p q) = supportLow2 V c (((cfg2.win 3).blk t).view.emb (ix2 p q))
  rw [outLowAt2 t p q]
  refine (congrFun (bodyLow2 (iblk2 V c 0 t) (iblk2 V c 1 t)) (ix2 p q)).trans ?_
  show Gcn.mm (iblk2 V c 0 t) (iblk2 V c 1 t) (ix2 p q) = Gcn.mm (V c main_v2) (V c main_arg6) (ix2 p q)
  simp only [Gcn.mm_apply, features2 V c t, weightLow2 V c t]

theorem flushedHigh2 (c : Dev nD) (t : Fin cfg2.N) :
    (dat2 V c).flushed 4 t = ((cfg2.win 4).blk t).view.read (Elt Ideal) (supportHigh2 V c) := by
  show (cfg2.win 4).cut (grid2.coords t) ((dat2 V c).after 4 t) = _
  rw [after2_4]
  unfold out2_4
  rw [View.canon_unit_zero zeros2]
  simp only [View.ld_unit_zero (S := S10000x64) zeros2, View.ld_unit_zero (S := S64x16) zeros2]
  funext j
  obtain ⟨p, q, rfl⟩ : ∃ (p : Fin 10000) (q : Fin 16), j = ix2 p q := ⟨j 0, j 1, eq_ix2 j⟩
  show k2_pay3 (iblk2 V c 0 t) (iblk2 V c 2 t) (ix2 p q) = supportHigh2 V c (((cfg2.win 4).blk t).view.emb (ix2 p q))
  rw [outHighAt2 t p q]
  refine (congrFun (bodyHigh2 (iblk2 V c 0 t) (iblk2 V c 2 t)) (ix2 p q)).trans ?_
  show Gcn.mm (iblk2 V c 0 t) (iblk2 V c 2 t) (ix2 p q) = Gcn.mm (V c main_v2) (V c main_arg7) (ix2 p q)
  simp only [Gcn.mm_apply, features2 V c t, weightHigh2 V c t]

theorem mem_blockLow2 (t : Fin cfg2.N) (i : S10000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v3_0).slice (win2_3.rect t)).set ↔ _
  rw [View.set_slice_whole, Rect.mem_set_unit]
  exact Iff.rfl

theorem mem_blockHigh2 (t : Fin cfg2.N) (i : S10000x16.Idx) :
    i ∈ ((cfg2.win 4).blk t).view.set ↔ ∀ a : Fin 2, win2_4.index t a * S10000x16.size a ≤ (i a).val ∧ (i a).val < win2_4.index t a * S10000x16.size a + S10000x16.size a := by
  show i ∈ ((View.whole main_v3_1).slice (win2_4.rect t)).set ↔ _
  rw [View.set_slice_whole, Rect.mem_set_unit]
  exact Iff.rfl

/-- The one block is the whole array. -/
theorem tiledLow2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  obtain ⟨-, -, -, -, -, -, e0, e1, -⟩ := maps2 t2_0
  refine ⟨t2_0, flush2_3 t2_0, ?_⟩
  rw [mem_blockLow2]
  intro a
  match a with
  | ⟨0, _⟩ => show win2_3.index t2_0 (0 : Fin 2) * 10000 ≤ (i 0).val ∧ (i 0).val < win2_3.index t2_0 (0 : Fin 2) * 10000 + 10000; omega
  | ⟨1, _⟩ => show win2_3.index t2_0 (1 : Fin 2) * 16 ≤ (i 1).val ∧ (i 1).val < win2_3.index t2_0 (1 : Fin 2) * 16 + 16; omega

theorem tiledHigh2 (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  obtain ⟨-, -, -, -, -, -, -, -, e0, e1⟩ := maps2 t2_0
  refine ⟨t2_0, flush2_4 t2_0, ?_⟩
  rw [mem_blockHigh2]
  intro a
  match a with
  | ⟨0, _⟩ => show win2_4.index t2_0 (0 : Fin 2) * 10000 ≤ (i 0).val ∧ (i 0).val < win2_4.index t2_0 (0 : Fin 2) * 10000 + 10000; omega
  | ⟨1, _⟩ => show win2_4.index t2_0 (1 : Fin 2) * 16 ≤ (i 1).val ∧ (i 1).val < win2_4.index t2_0 (1 : Fin 2) * 16 + 16; omega

/-- The two output arrays after the region. -/
theorem arrayLow2 (c : Dev nD) : (dat2 V c).arrAt 3 cfg2.N = supportLow2 V c :=
  (dat2 V c).arrAt_eq_of_cover 3 (supportLow2 V c) (fun t _ => flushedLow2 V c t) tiledLow2
theorem arrayHigh2 (c : Dev nD) : (dat2 V c).arrAt 4 cfg2.N = supportHigh2 V c :=
  (dat2 V c).arrAt_eq_of_cover 4 (supportHigh2 V c) (fun t _ => flushedHigh2 V c t) tiledHigh2

end Cert.KernelIdeal.RegionValue

end
-- ==== Proof.Region3.lean ====
/-
  The second aggregation region (50 grid points, 200 rows each), read at the exact instance from ANY contents V of
  the buffers at its entry.

  Grid point t stages rows [200·t, 200·t + 200) of both adjacency arrays and the two second-layer support arrays and
  the one-row bias whole, and writes back rows [200·t, 200·t + 200) of the output. Row p of that block is row
  200·t + p of

      A · S + A' · S' + b

  (no activation after this layer), because row p of an adjacency block is row 200·t + p of the adjacency array. The
  50 blocks tile the output's rows, so the output array ends holding that function everywhere.
-/
import proofs.«180619_g4011499454775_cont_8to1_b_953_2_alg».proof.Proof.Gen.KernelIdeal.Frame
import proofs.«180619_g4011499454775_cont_8to1_b_953_2_alg».proof.Proof.Spec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem zeros3 : (![0, 0] : Fin 2 → Nat) = fun _ => 0 := funext fun a => by fin_cases a <;> rfl

/-- What the region leaves in its output array: the layer of the arrays it reads, the bias read off the one row of
    its [1, 16] array. -/
def logits (c : Dev nD) : S10000x16.Idx → EReal :=
  Gcn.layer (M := 10000) (K := 10000) (N := 16) (V c main_arg1) (V c main_arg2) (V c main_v3_0) (V c main_v3_1)
    (fun i => V c main_v4 (ix2 (0 : Fin 1) (i 0)))

/-- The body's arithmetic at entry (p, q) of its block. -/
theorem body3 (a a' : Vec Ideal S200x10000 .f32) (s s' : Vec Ideal S10000x16 .bf16) (b : Vec Ideal S1x16 .f32) (p : Fin 200) (q : Fin 16) :
    k3_pay1 a a' s s' b (ix2 p q) = Gcn.mm a s (ix2 p q) + Gcn.mm a' s' (ix2 p q) + b (ix2 (0 : Fin 1) q) :=
  Gcn.aggregate_value a a' s s' b bitsLt_bf16_f32 shapeCasts_S10000x16_S10000x16 shapeCasts_S1x16_S1x16 broadcasts_S1x16_S200x16 p q

/-- The printed index maps over the 50 points: the adjacency windows move with the output window along the rows, the
    other windows stay at block 0, and the output's row-block index is below 50. -/
theorem maps3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 49 ∧ win3_5.index t (1 : Fin 2) = 0 :=
  (by decide +kernel : ∀ t : Fin grid3.N, _)

/-- Every row block is some point's. -/
theorem onto3 : ∀ r : Fin 50, ∃ t : Fin cfg3.N, win3_5.index t = ![r.val, 0] :=
  (by decide +kernel : ∀ r : Fin 50, ∃ t : Fin grid3.N, win3_5.index t = ![r.val, 0])

/-- The array row that row p of point t's blocks is. -/
def row3 (t : Fin cfg3.N) (p : Fin 200) : Fin 10000 :=
  ⟨win3_5.index t (0 : Fin 2) * 200 + p.val, by have := (maps3 t).2.2.2.2.2.2.2.2.2.2.1; have := p.isLt; omega⟩

theorem adj3 (c : Dev nD) (t : Fin cfg3.N) (p : Fin 200) (k : Fin 10000) :
    iblk3 V c 0 t (ix2 p k) = V c main_arg1 (ix2 (row3 t p) k) := by
  show V c main_arg1 (((cfg3.win 0).blk t).view.emb (ix2 p k)) = V c main_arg1 (ix2 (row3 t p) k)
  refine congrArg _ (funext fun a => Fin.ext ?_)
  obtain ⟨e0, e1, -⟩ := maps3 t
  match a with
  | ⟨0, _⟩ => show win3_0.index t (0 : Fin 2) * 200 + 1 * p.val = win3_5.index t (0 : Fin 2) * 200 + p.val; omega
  | ⟨1, _⟩ => show win3_0.index t (1 : Fin 2) * 10000 + 1 * k.val = k.val; omega

theorem adjHigh3 (c : Dev nD) (t : Fin cfg3.N) (p : Fin 200) (k : Fin 10000) :
    iblk3 V c 1 t (ix2 p k) = V c main_arg2 (ix2 (row3 t p) k) := by
  show V c main_arg2 (((cfg3.win 1).blk t).view.emb (ix2 p k)) = V c main_arg2 (ix2 (row3 t p) k)
  refine congrArg _ (funext fun a => Fin.ext ?_)
  obtain ⟨-, -, e0, e1, -⟩ := maps3 t
  match a with
  | ⟨0, _⟩ => show win3_1.index t (0 : Fin 2) * 200 + 1 * p.val = win3_5.index t (0 : Fin 2) * 200 + p.val; omega
  | ⟨1, _⟩ => show win3_1.index t (1 : Fin 2) * 10000 + 1 * k.val = k.val; omega

theorem supLow3 (c : Dev nD) (t : Fin cfg3.N) (k : Fin 10000) (q : Fin 16) :
    iblk3 V c 2 t (ix2 k q) = V c main_v3_0 (ix2 k q) := by
  show V c main_v3_0 (((cfg3.win 2).blk t).view.emb (ix2 k q)) = V c main_v3_0 (ix2 k q)
  refine congrArg _ (funext fun a => Fin.ext ?_)
  obtain ⟨-, -, -, -, e0, e1, -⟩ := maps3 t
  match a with
  | ⟨0, _⟩ => show win3_2.index t (0 : Fin 2) * 10000 + 1 * k.val = k.val; omega
  | ⟨1, _⟩ => show win3_2.index t (1 : Fin 2) * 16 + 1 * q.val = q.val; omega

theorem supHigh3 (c : Dev nD) (t : Fin cfg3.N) (k : Fin 10000) (q : Fin 16) :
    iblk3 V c 3 t (ix2 k q) = V c main_v3_1 (ix2 k q) := by
  show V c main_v3_1 (((cfg3.win 3).blk t).view.emb (ix2 k q)) = V c main_v3_1 (ix2 k q)
  refine congrArg _ (funext fun a => Fin.ext ?_)
  obtain ⟨-, -, -, -, -, -, e0, e1, -⟩ := maps3 t
  match a with
  | ⟨0, _⟩ => show win3_3.index t (0 : Fin 2) * 10000 + 1 * k.val = k.val; omega
  | ⟨1, _⟩ => show win3_3.index t (1 : Fin 2) * 16 + 1 * q.val = q.val; omega

theorem bias3 (c : Dev nD) (t : Fin cfg3.N) (u : Fin 1) (q : Fin 16) :
    iblk3 V c 4 t (ix2 u q) = V c main_v4 (ix2 u q) := by
  show V c main_v4 (((cfg3.win 4).blk t).view.emb (ix2 u q)) = V c main_v4 (ix2 u q)
  refine congrArg _ (funext fun a => Fin.ext ?_)
  obtain ⟨-, -, -, -, -, -, -, -, e0, e1, -⟩ := maps3 t
  match a with
  | ⟨0, _⟩ => show win3_4.index t (0 : Fin 2) * 1 + 1 * u.val = u.val; omega
  | ⟨1, _⟩ => show win3_4.index t (1 : Fin 2) * 16 + 1 * q.val = q.val; omega

theorem outAt3 (t : Fin cfg3.N) (p : Fin 200) (q : Fin 16) :
    ((cfg3.win 5).blk t).view.emb (ix2 p q) = ix2 (row3 t p) q := by
  funext a; apply Fin.ext
  have e1 := (maps3 t).2.2.2.2.2.2.2.2.2.2.2
  match a with
  | ⟨0, _⟩ => show win3_5.index t (0 : Fin 2) * 200 + 1 * p.val = win3_5.index t (0 : Fin 2) * 200 + p.val; omega
  | ⟨1, _⟩ => show win3_5.index t (1 : Fin 2) * 16 + 1 * q.val = q.val; omega

/-- What point t writes back is block t of the layer. -/
theorem flushed3 (c : Dev nD) (t : Fin cfg3.N) :
    (dat3 V c).flushed 5 t = ((cfg3.win 5).blk t).view.read (Elt Ideal) (logits V c) := by
  show (cfg3.win 5).cut (grid3.coords t) ((dat3 V c).after 5 t) = _
  rw [after3_5]
  unfold out3_5
  rw [View.canon_unit_zero zeros3]
  simp only [View.ld_unit_zero (S := S200x10000) zeros3, View.ld_unit_zero (S := S10000x16) zeros3, View.ld_unit_zero (S := S1x16) zeros3]
  funext j
  obtain ⟨p, q, rfl⟩ : ∃ (p : Fin 200) (q : Fin 16), j = ix2 p q := ⟨j 0, j 1, eq_ix2 j⟩
  show k3_pay1 (iblk3 V c 0 t) (iblk3 V c 1 t) (iblk3 V c 2 t) (iblk3 V c 3 t) (iblk3 V c 4 t) (ix2 p q)
    = logits V c (((cfg3.win 5).blk t).view.emb (ix2 p q))
  rw [outAt3 t p q]
  refine (body3 (iblk3 V c 0 t) (iblk3 V c 1 t) (iblk3 V c 2 t) (iblk3 V c 3 t) (iblk3 V c 4 t) p q).trans ?_
  show Gcn.mm (iblk3 V c 0 t) (iblk3 V c 2 t) (ix2 p q) + Gcn.mm (iblk3 V c 1 t) (iblk3 V c 3 t) (ix2 p q) + iblk3 V c 4 t (ix2 (0 : Fin 1) q)
    = Gcn.mm (V c main_arg1) (V c main_v3_0) (ix2 (row3 t p) q) + Gcn.mm (V c main_arg2) (V c main_v3_1) (ix2 (row3 t p) q) + V c main_v4 (ix2 (0 : Fin 1) q)
  simp only [Gcn.mm_apply, adj3 V c t, adjHigh3 V c t, supLow3 V c t, supHigh3 V c t, bias3 V c t]

theorem mem_block3 (t : Fin cfg3.N) (i : S10000x16.Idx) :
    i ∈ ((cfg3.win 5).blk t).view.set ↔ ∀ a : Fin 2, win3_5.index t a * S200x16.size a ≤ (i a).val ∧ (i a).val < win3_5.index t a * S200x16.size a + S200x16.size a := by
  show i ∈ ((View.whole main_v5).slice (win3_5.rect t)).set ↔ _
  rw [View.set_slice_whole, Rect.mem_set_unit]
  exact Iff.rfl

/-- The 50 row blocks tile the output array. -/
theorem tiled3 (i : S10000x16.Idx) : ∃ t : Fin cfg3.N, (cfg3.win 5).flush t = true ∧ i ∈ ((cfg3.win 5).blk t).view.set := by
  have hi0 : (i 0).val < 10000 := (i 0).isLt
  have hi1 : (i 1).val < 16 := (i 1).isLt
  obtain ⟨t, ht⟩ := onto3 ⟨(i 0).val / 200, by omega⟩
  have q0 : win3_5.index t (0 : Fin 2) = (i 0).val / 200 := congrFun ht 0
  have q1 : win3_5.index t (1 : Fin 2) = 0 := congrFun ht 1
  refine ⟨t, flush3_5 t, ?_⟩
  rw [mem_block3]
  intro a
  match a with
  | ⟨0, _⟩ => show win3_5.index t (0 : Fin 2) * 200 ≤ (i 0).val ∧ (i 0).val < win3_5.index t (0 : Fin 2) * 200 + 200; omega
  | ⟨1, _⟩ => show win3_5.index t (1 : Fin 2) * 16 ≤ (i 1).val ∧ (i 1).val < win3_5.index t (1 : Fin 2) * 16 + 16; omega

/-- The output array after the region. -/
theorem array3 (c : Dev nD) : (dat3 V c).arrAt 5 cfg3.N = logits V c :=
  (dat3 V c).arrAt_eq_of_cover 5 (logits V c) (fun t _ => flushed3 V c t) tiled3

end Cert.KernelIdeal.RegionValue

end
-- ==== Proof.Fold.lean ====
/-
  The contents of the result array at the last boundary of the fold through @main, as a function of the launch
  memory: the two-layer network of the nine arguments.

  @main is: support region, a reshape of the first bias to one row, aggregation region, support region, a reshape of
  the second bias to one row, aggregation region. No host operation and no region writes an argument array; each
  region writes only its own output arrays, and each reshape writes only its one-row array. So at every region's entry
  an argument array still holds its launch contents, an earlier region's output holds that region's value, and the
  one-row array read at (0, q) is the bias vector at q. Substituting region by region gives the network.
-/
import proofs.«180619_g4011499454775_cont_8to1_b_953_2_alg».proof.Proof.Gen.KernelIdeal.Frame
import proofs.«180619_g4011499454775_cont_8to1_b_953_2_alg».proof.Proof.Region0
import proofs.«180619_g4011499454775_cont_8to1_b_953_2_alg».proof.Proof.Region1
import proofs.«180619_g4011499454775_cont_8to1_b_953_2_alg».proof.Proof.Region2
import proofs.«180619_g4011499454775_cont_8to1_b_953_2_alg».proof.Proof.Region3
import Idealize.ShloMosaic.Lib.StableHlo.Run
import Idealize.ShloMosaic.Lib.ValueLayout

set_option maxRecDepth 16384

noncomputable section

namespace Cert.KernelIdeal.Fold

open Cert.KernelIdeal Cert.KernelIdeal.Gen Cert.KernelIdeal.RegionValue
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-! ## The two host stretches write only their one-row arrays -/

theorem reshape0_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem reshape1_keeps (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## At the entry of the first aggregation region -/

theorem entry2_adj (c : Dev nD) : V2 m ρ c main_arg1 = m ((c : Thread nD τ).loc main_arg1) :=
  (reshape0_keeps m ρ c main_arg1 (by decide)).trans (W1_of_ne m ρ c main_arg1 (by decide))

theorem entry2_adjHigh (c : Dev nD) : V2 m ρ c main_arg2 = m ((c : Thread nD τ).loc main_arg2) :=
  (reshape0_keeps m ρ c main_arg2 (by decide)).trans (W1_of_ne m ρ c main_arg2 (by decide))

theorem entry2_supLow (c : Dev nD) : V2 m ρ c main_v0_0 = supportLow0 (V0 m ρ) c :=
  (reshape0_keeps m ρ c main_v0_0 (by decide)).trans ((W1_arr m ρ c 3).trans (arrayLow0 (V0 m ρ) c))

theorem entry2_supHigh (c : Dev nD) : V2 m ρ c main_v0_1 = supportHigh0 (V0 m ρ) c :=
  (reshape0_keeps m ρ c main_v0_1 (by decide)).trans ((W1_arr m ρ c 4).trans (arrayHigh0 (V0 m ρ) c))

theorem launch_bias0 (c : Dev nD) : W1 m ρ c (Proc.devRef .tc main_arg5) = m ((c : Thread nD τ).loc main_arg5) :=
  W1_of_ne m ρ c main_arg5 (by decide)

theorem entry2_biasRow (c : Dev nD) :
    (V2 m ρ c main_v1 : S1x64.Idx → EReal) = shapeCast S1x64 (m ((c : Thread nD τ).loc main_arg5)) shapeCasts_S64_S1x64 := by
  rw [← launch_bias0 m ρ c]
  show StableHlo.after hostOps1 (W1 m ρ c) (Proc.devRef .tc main_v1) = _
  after_results
  rfl

/-- The one-row bias array read along its row is the bias vector. -/
theorem entry2_bias (c : Dev nD) :
    (fun i : S64.Idx => (V2 m ρ c main_v1 : S1x64.Idx → EReal) (ix2 (0 : Fin 1) (i 0))) = m ((c : Thread nD τ).loc main_arg5) := by
  funext i
  obtain ⟨q, rfl⟩ : ∃ q : Fin 64, i = ix1 q := ⟨i 0, eq_ix1 i⟩
  rw [entry2_biasRow]
  exact shapeCast_a_1a_apply _ _ 0 q

/-- The hidden features the first aggregation region leaves: the activated first layer of the arguments. -/
theorem hidden_value (c : Dev nD) :
    RegionValue.hidden (V2 m ρ) c = Gcn.relu (Gcn.layer (m ((c : Thread nD τ).loc main_arg1)) (m ((c : Thread nD τ).loc main_arg2))
      (Gcn.mm (m ((c : Thread nD τ).loc main_arg0)) (m ((c : Thread nD τ).loc main_arg3))) (Gcn.mm (m ((c : Thread nD τ).loc main_arg0)) (m ((c : Thread nD τ).loc main_arg4))) (m ((c : Thread nD τ).loc main_arg5))) := by
  unfold RegionValue.hidden
  rw [entry2_adj, entry2_adjHigh, entry2_supLow, entry2_supHigh, entry2_bias]
  rfl

/-! ## At the entry of the second support region -/

theorem entry3_hidden (c : Dev nD) : V3 m ρ c main_v2 = RegionValue.hidden (V2 m ρ) c :=
  (W3_arr m ρ c 5).trans (array1 (V2 m ρ) c)

theorem entry3_weightLow (c : Dev nD) : V3 m ρ c main_arg6 = m ((c : Thread nD τ).loc main_arg6) :=
  (W3_of_ne m ρ c main_arg6 (by decide)).trans ((reshape0_keeps m ρ c main_arg6 (by decide)).trans (W1_of_ne m ρ c main_arg6 (by decide)))

theorem entry3_weightHigh (c : Dev nD) : V3 m ρ c main_arg7 = m ((c : Thread nD τ).loc main_arg7) :=
  (W3_of_ne m ρ c main_arg7 (by decide)).trans ((reshape0_keeps m ρ c main_arg7 (by decide)).trans (W1_of_ne m ρ c main_arg7 (by decide)))

/-! ## At the entry of the second aggregation region -/

theorem entry5_adj (c : Dev nD) : V5 m ρ c main_arg1 = m ((c : Thread nD τ).loc main_arg1) :=
  (reshape1_keeps m ρ c main_arg1 (by decide)).trans ((W4_of_ne m ρ c main_arg1 (by decide)).trans
    ((W3_arr m ρ c 0).trans (((dat1 (V2 m ρ) c).arrAt_in 0 rfl _).trans ((A_eq1 (V2 m ρ) c 0).trans (entry2_adj m ρ c)))))

theorem entry5_adjHigh (c : Dev nD) : V5 m ρ c main_arg2 = m ((c : Thread nD τ).loc main_arg2) :=
  (reshape1_keeps m ρ c main_arg2 (by decide)).trans ((W4_of_ne m ρ c main_arg2 (by decide)).trans
    ((W3_arr m ρ c 1).trans (((dat1 (V2 m ρ) c).arrAt_in 1 rfl _).trans ((A_eq1 (V2 m ρ) c 1).trans (entry2_adjHigh m ρ c)))))

theorem entry5_supLow (c : Dev nD) : V5 m ρ c main_v3_0 = supportLow2 (V3 m ρ) c :=
  (reshape1_keeps m ρ c main_v3_0 (by decide)).trans ((W4_arr m ρ c 3).trans (arrayLow2 (V3 m ρ) c))

theorem entry5_supHigh (c : Dev nD) : V5 m ρ c main_v3_1 = supportHigh2 (V3 m ρ) c :=
  (reshape1_keeps m ρ c main_v3_1 (by decide)).trans ((W4_arr m ρ c 4).trans (arrayHigh2 (V3 m ρ) c))

theorem launch_bias1 (c : Dev nD) : W4 m ρ c (Proc.devRef .tc main_arg8) = m ((c : Thread nD τ).loc main_arg8) :=
  (W4_of_ne m ρ c main_arg8 (by decide)).trans ((W3_of_ne m ρ c main_arg8 (by decide)).trans
    ((reshape0_keeps m ρ c main_arg8 (by decide)).trans (W1_of_ne m ρ c main_arg8 (by decide))))

theorem entry5_biasRow (c : Dev nD) :
    (V5 m ρ c main_v4 : S1x16.Idx → EReal) = shapeCast S1x16 (m ((c : Thread nD τ).loc main_arg8)) shapeCasts_S16_S1x16 := by
  rw [← launch_bias1 m ρ c]
  show StableHlo.after hostOps3 (W4 m ρ c) (Proc.devRef .tc main_v4) = _
  after_results
  rfl

theorem entry5_bias (c : Dev nD) :
    (fun i : S16.Idx => (V5 m ρ c main_v4 : S1x16.Idx → EReal) (ix2 (0 : Fin 1) (i 0))) = m ((c : Thread nD τ).loc main_arg8) := by
  funext i
  obtain ⟨q, rfl⟩ : ∃ q : Fin 16, i = ix1 q := ⟨i 0, eq_ix1 i⟩
  rw [entry5_biasRow]
  exact shapeCast_a_1a_apply _ _ 0 q

/-! ## The result array at the last boundary -/

theorem result (c : Dev nD) :
    W6 m ρ c (Proc.devRef .tc main_v5)
      = Gcn.net (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  refine (W6_arr m ρ c 5).trans ((array3 (V5 m ρ) c).trans ?_)
  unfold logits
  rw [entry5_adj, entry5_adjHigh, entry5_supLow, entry5_supHigh, entry5_bias]
  unfold supportLow2 supportHigh2
  rw [entry3_hidden, entry3_weightLow, entry3_weightHigh, hidden_value]
  rfl

end Cert.KernelIdeal.Fold

end
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«180619_g4011499454775_cont_8to1_b_953_2_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.RefValue.lean ====
/-
  The reference program's result, stage by stage, is the two-layer network of the specification.

  Each host product is the plain product (the finite sum over the contraction coordinate), the two broadcasts of a
  bias vector read at (p, q) are the vector at q, and the activation's second operand is the zero constant at every
  index; so the first eight stages are the activated first layer, and the remaining stages are the second layer of it.
-/
import proofs.«180619_g4011499454775_cont_8to1_b_953_2_alg».proof.Proof.Gen.ReferenceIdeal.Read
import proofs.«180619_g4011499454775_cont_8to1_b_953_2_alg».proof.Proof.Spec
import proofs.«180619_g4011499454775_cont_8to1_b_953_2_alg».proof.Proof.LibDotPlain

noncomputable section

namespace Cert.ReferenceIdeal.RefValue

open Cert.ReferenceIdeal Cert.ReferenceIdeal.Gen Cert.ReferenceIdeal.Read
open Idealize.ShloMosaic Idealize.ShloMosaic.ValueIdx

/-- The host's plain product, as a whole array, is the specification's product. -/
theorem host_mm {M K N : ℕ} (prec : Option ContractPrecision) (l : FVec Ideal ⟨2, ![M, K]⟩ .f32) (r : FVec Ideal ⟨2, ![K, N]⟩ .f32) :
    Host.dotGeneral (DotDims.plain M K N) prec l r = Gcn.mm l r := by
  funext i
  obtain ⟨p, q, rfl⟩ : ∃ (p : Fin M) (q : Fin N), i = ix2 p q := ⟨i 0, i 1, eq_ix2 i⟩
  exact DotPlain.dotGeneral_apply prec l r p q

/-! ## The first layer -/

theorem supLow0 (x0 : (⟨S10000x128, .f32⟩ : BufTy).Contents (Elt Ideal)) (x3 : (⟨S128x64, .f32⟩ : BufTy).Contents (Elt Ideal)) : val_main_v0 (F := Ideal) x0 x3 = Gcn.mm x0 x3 := host_mm none x0 x3

theorem supHigh0 (x0 : (⟨S10000x128, .f32⟩ : BufTy).Contents (Elt Ideal)) (x4 : (⟨S128x64, .f32⟩ : BufTy).Contents (Elt Ideal)) : val_main_v1 (F := Ideal) x0 x4 = Gcn.mm x0 x4 := host_mm none x0 x4

theorem aggLow0 (x0 : (⟨S10000x128, .f32⟩ : BufTy).Contents (Elt Ideal)) (x1 : (⟨S10000x10000, .f32⟩ : BufTy).Contents (Elt Ideal)) (x3 : (⟨S128x64, .f32⟩ : BufTy).Contents (Elt Ideal)) : val_main_v2 (F := Ideal) x0 x1 x3 = Gcn.mm x1 (Gcn.mm x0 x3) := by
  unfold val_main_v2; rw [supLow0]; exact host_mm none x1 _

theorem aggHigh0 (x0 : (⟨S10000x128, .f32⟩ : BufTy).Contents (Elt Ideal)) (x2 : (⟨S10000x10000, .f32⟩ : BufTy).Contents (Elt Ideal)) (x4 : (⟨S128x64, .f32⟩ : BufTy).Contents (Elt Ideal)) : val_main_v3 (F := Ideal) x0 x2 x4 = Gcn.mm x2 (Gcn.mm x0 x4) := by
  unfold val_main_v3; rw [supHigh0]; exact host_mm none x2 _

/-- The two broadcasts of the bias vector, read at (p, q), are the vector at q. -/
theorem biasAt0 (p : Fin 10000) (q : Fin 64) : idx_main_v5 (idx_main_v6 (ix2 p q)) = ix1 q :=
  funext fun a => Fin.ext (by match a with | ⟨0, _⟩ => rfl)

theorem layer0 (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) :
    val_main_v7 (F := Ideal) x0 x1 x2 x3 x4 x5 = Gcn.layer x1 x2 (Gcn.mm x0 x3) (Gcn.mm x0 x4) x5 := by
  funext i
  obtain ⟨p, q, rfl⟩ : ∃ (p : Fin 10000) (q : Fin 64), i = ix2 p q := ⟨i 0, i 1, eq_ix2 i⟩
  rw [val_main_v7_apply, val_main_v4_apply, val_main_v6_apply, val_main_v5_apply, aggLow0, aggHigh0, biasAt0]
  rfl

theorem hidden (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) :
    val_main_v8 (F := Ideal) x0 x1 x2 x3 x4 x5 = Gcn.relu (Gcn.layer x1 x2 (Gcn.mm x0 x3) (Gcn.mm x0 x4) x5) := by
  funext i
  rw [val_main_v8_apply, val_main_call0_v0_apply, val_main_call0_cst_apply, layer0]
  rfl

/-! ## The second layer -/

theorem supLow1 (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) (x6 : (⟨S64x16, .f32⟩ : BufTy).Contents (Elt Ideal)) :
    val_main_v9 (F := Ideal) x0 x1 x2 x3 x4 x5 x6 = Gcn.mm (Gcn.relu (Gcn.layer x1 x2 (Gcn.mm x0 x3) (Gcn.mm x0 x4) x5)) x6 := by
  unfold val_main_v9; rw [hidden]; exact host_mm none _ x6

theorem supHigh1 (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) (x7 : (⟨S64x16, .f32⟩ : BufTy).Contents (Elt Ideal)) :
    val_main_v10 (F := Ideal) x0 x1 x2 x3 x4 x5 x7 = Gcn.mm (Gcn.relu (Gcn.layer x1 x2 (Gcn.mm x0 x3) (Gcn.mm x0 x4) x5)) x7 := by
  unfold val_main_v10; rw [hidden]; exact host_mm none _ x7

theorem aggLow1 (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) (x6 : (⟨S64x16, .f32⟩ : BufTy).Contents (Elt Ideal)) :
    val_main_v11 (F := Ideal) x0 x1 x2 x3 x4 x5 x6
      = Gcn.mm x1 (Gcn.mm (Gcn.relu (Gcn.layer x1 x2 (Gcn.mm x0 x3) (Gcn.mm x0 x4) x5)) x6) := by
  unfold val_main_v11; rw [supLow1]; exact host_mm none x1 _

theorem aggHigh1 (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) (x7 : (⟨S64x16, .f32⟩ : BufTy).Contents (Elt Ideal)) :
    val_main_v12 (F := Ideal) x0 x1 x2 x3 x4 x5 x7
      = Gcn.mm x2 (Gcn.mm (Gcn.relu (Gcn.layer x1 x2 (Gcn.mm x0 x3) (Gcn.mm x0 x4) x5)) x7) := by
  unfold val_main_v12; rw [supHigh1]; exact host_mm none x2 _

theorem biasAt1 (p : Fin 10000) (q : Fin 16) : idx_main_v14 (idx_main_v15 (ix2 p q)) = ix1 q :=
  funext fun a => Fin.ext (by match a with | ⟨0, _⟩ => rfl)

/-- The reference's result is the network. -/
theorem result (x0 : (⟨S10000x128, .f32⟩ : BufTy).Contents (Elt Ideal)) (x1 : (⟨S10000x10000, .f32⟩ : BufTy).Contents (Elt Ideal)) (x2 : (⟨S10000x10000, .f32⟩ : BufTy).Contents (Elt Ideal)) (x3 : (⟨S128x64, .f32⟩ : BufTy).Contents (Elt Ideal)) (x4 : (⟨S128x64, .f32⟩ : BufTy).Contents (Elt Ideal)) (x5 : (⟨S64, .f32⟩ : BufTy).Contents (Elt Ideal)) (x6 : (⟨S64x16, .f32⟩ : BufTy).Contents (Elt Ideal)) (x7 : (⟨S64x16, .f32⟩ : BufTy).Contents (Elt Ideal)) (x8 : (⟨S16, .f32⟩ : BufTy).Contents (Elt Ideal)) :
    val_main_v16 (F := Ideal) x0 x1 x2 x3 x4 x5 x6 x7 x8 = Gcn.net x0 x1 x2 x3 x4 x5 x6 x7 x8 := by
  funext i
  obtain ⟨p, q, rfl⟩ : ∃ (p : Fin 10000) (q : Fin 16), i = ix2 p q := ⟨i 0, i 1, eq_ix2 i⟩
  rw [val_main_v16_apply, val_main_v13_apply, val_main_v15_apply, val_main_v14_apply, aggLow1, aggHigh1, biasAt1]
  rfl

end Cert.ReferenceIdeal.RefValue

end
-- ==== Proof.lean ====
/-
  The certificate of a two-layer graph convolution over two dense adjacency arrays: a Pallas program of four kernel
  regions against its plain jnp reference, equal on the extended reals.

  THE MATHEMATICS. With features x [10000, 128], adjacency arrays A, A' [10000, 10000], weights W0, W0' [128, 64] and
  W1, W1' [64, 16], and bias vectors b0 [64], b1 [16], both programs compute

      h   = max (A · (x · W0) + A' · (x · W0') + b0, 0)
      out =      A · (h · W1) + A' · (h · W1') + b1

  every product the plain matrix product, each bias added to every row. The kernel program computes x · W0 and
  x · W0' in one gridless region, the activated first layer in a region of 50 row blocks of 200 rows, h · W1 and
  h · W1' in a second gridless region, and the second layer in a second region of 50 row blocks; between the regions
  the host only reshapes each bias vector to a one-row array. Its changes of float format (the supports are stored in a
  narrower format, the adjacency blocks are narrowed before each product) are the identity on the extended reals, and
  its products into a zero accumulator are the same finite sums the reference's products are. The reference program
  computes the same two layers with host products, two broadcasts of each bias vector and a maximum with a broadcast
  zero. Both sides group the two additions of a layer the same way, (A·S + A'·S') + b, and a row block of a product
  depends only on the same row block of the left factor, so the two results are the same function of the arguments
  index by index with no law of arithmetic beyond that — in particular finiteness of the inputs is never used.

  THE PARTS. The specification states the network as one whole-array function, generic in the sizes. On the kernel
  side: each region's output array, from any contents of the buffers at the region's entry, is that region's function
  of the arrays it reads (the body's stored value read at an entry of a block, the block's rows placed in the array,
  the blocks tiling the array); the contents at the six segment boundaries of @main are folded back to the launch
  memory region by region; and the run of @main ends with the result array at the last boundary's contents. On the
  reference side the generated run ends with the result at the operations' composed term, which stage by stage is the
  same whole-array function. The three frame claims are the generated frames (the reference's is its run with the
  result dropped), and the idealized kernel is the kernel's own text read at the exact instance, so that claim has no
  conjunct.
-/
import proofs.«180619_g4011499454775_cont_8to1_b_953_2_alg».proof.Defs
import proofs.«180619_g4011499454775_cont_8to1_b_953_2_alg».proof.Proof.Gen.Kernel
import proofs.«180619_g4011499454775_cont_8to1_b_953_2_alg».proof.Proof.Gen.Kernel.Skeleton
import proofs.«180619_g4011499454775_cont_8to1_b_953_2_alg».proof.Proof.Gen.Kernel.Launch
import proofs.«180619_g4011499454775_cont_8to1_b_953_2_alg».proof.Proof.Gen.Kernel.Points
import proofs.«180619_g4011499454775_cont_8to1_b_953_2_alg».proof.Proof.Gen.Kernel.Frame
import proofs.«180619_g4011499454775_cont_8to1_b_953_2_alg».proof.Proof.Gen.KernelIdeal
import proofs.«180619_g4011499454775_cont_8to1_b_953_2_alg».proof.Proof.Gen.KernelIdeal.Skeleton
import proofs.«180619_g4011499454775_cont_8to1_b_953_2_alg».proof.Proof.Gen.KernelIdeal.Launch
import proofs.«180619_g4011499454775_cont_8to1_b_953_2_alg».proof.Proof.Gen.KernelIdeal.Points
import proofs.«180619_g4011499454775_cont_8to1_b_953_2_alg».proof.Proof.Gen.KernelIdeal.Frame
import proofs.«180619_g4011499454775_cont_8to1_b_953_2_alg».proof.Proof.Gen.ReferenceIdeal
import proofs.«180619_g4011499454775_cont_8to1_b_953_2_alg».proof.Proof.Gen.ReferenceIdeal.Run
import proofs.«180619_g4011499454775_cont_8to1_b_953_2_alg».proof.Proof.Gen.ReferenceIdeal.Read
import proofs.«180619_g4011499454775_cont_8to1_b_953_2_alg».proof.Proof.Gen.Pre_finite_inputs
import proofs.«180619_g4011499454775_cont_8to1_b_953_2_alg».proof.Proof.RunNamed
import proofs.«180619_g4011499454775_cont_8to1_b_953_2_alg».proof.Proof.Fold
import proofs.«180619_g4011499454775_cont_8to1_b_953_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the exact instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the network of the arguments: the kernel's run ends at the last
    boundary's contents, which fold back to the network; the reference's run ends at its operations' term, which
    stage by stage is the network of its own arguments, and these agree with the kernel's. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, Cert.ReferenceIdeal.RefValue.result,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
